-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x160000 : Shape := ⟨2, ![256, 160000]⟩
abbrev S_ : Shape := ⟨0, ![]⟩

class Facts : Prop where
  bcast_S_S256x160000 : S_.BroadcastsInDim S256x160000 (![] : Fin 0 → Fin S256x160000.rank)
  reducesTo_S256x160000_S_d0_1 : S256x160000.ReducesTo [0, 1] S_
  h_S_ : 0 < S_.numel

variable [Facts]

def fn {F : FTy → Type} [FloatOps F] (main_arg0 : FVec F S256x160000 .f32) : IVec S_ 1 :=
  let main_v0 : FVec F S256x160000 .f32 := Host.absf main_arg0
  let main_cst : FVec F S_ .f32 := constant S_ .f32 0x7F800000#32
  let main_v1 : FVec F S256x160000 .f32 := broadcastInDim S256x160000 ![] bcast_S_S256x160000 main_cst
  let main_v2 : IVec S256x160000 1 := cmpf .olt main_v0 main_v1
  let main_c : IVec S_ 1 := constantI S_ 1 1#1
  let main_v3 : IVec S_ 1 := (fun x v => Host.reduce IntOp.andi x v reducesTo_S256x160000_S_d0_1 h_S_) main_v2 main_c
  main_v3
-- ==== Kernel.lean ====
abbrev S256x160000 : Shape := ⟨2, ![256, 160000]⟩
abbrev S256x1 : Shape := ⟨2, ![256, 1]⟩
abbrev S256x6400 : Shape := ⟨2, ![256, 6400]⟩
abbrev S256 : Shape := ⟨1, ![256]⟩
abbrev S255 : Shape := ⟨1, ![255]⟩
abbrev S1 : Shape := ⟨1, ![1]⟩
abbrev S_ : Shape := ⟨0, ![]⟩
abbrev S256x3200 : Shape := ⟨2, ![256, 3200]⟩

abbrev nBuf : Space → Nat
  | .hbm => 21
  | .vmem => 8
  | .smem => 0
  | _ => 0

abbrev bufTy : (tb : Table) → Fin (tcTables nBuf tb) → BufTy
  | .hbm, ⟨0, _⟩ => ⟨S256x160000, .f32⟩
  | .hbm, ⟨1, _⟩ => ⟨S256x1, .f32⟩
  | .hbm, ⟨2, _⟩ => ⟨S256, .f32⟩
  | .hbm, ⟨3, _⟩ => ⟨S255, .f32⟩
  | .hbm, ⟨4, _⟩ => ⟨S1, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256x1, .f32⟩
  | .hbm, ⟨20, _⟩ => ⟨S256x160000, .f32⟩
  | .local _ .vmem, ⟨0, _⟩ => ⟨S256x6400, .f32⟩
  | .local _ .vmem, ⟨1, _⟩ => ⟨S256x6400, .f32⟩
  | .local _ .vmem, ⟨2, _⟩ => ⟨S256x1, .f32⟩
  | .local _ .vmem, ⟨3, _⟩ => ⟨S256x3200, .f32⟩
  | .local _ .vmem, ⟨4, _⟩ => ⟨S256x3200, .f32⟩
  | .local _ .vmem, ⟨5, _⟩ => ⟨S256x1, .f32⟩
  | .local _ .vmem, ⟨6, _⟩ => ⟨S256x3200, .f32⟩
  | .local _ .vmem, ⟨7, _⟩ => ⟨S256x3200, .f32⟩
  | _, _ => ⟨S256x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x1_S256x1_0_0 : ∀ a, (![0, 0] : Fin 2 → Nat) a + S256x1.size a ≤ S256x1.size a
  h_S256x1 : 0 < S256x1.numel
  inb_S256x6400_S256x6400_0_0 : ∀ a, (![0, 0] : Fin 2 → Nat) a + S256x6400.size a ≤ S256x6400.size a
  h_S256x6400 : 0 < S256x6400.numel
  reduces_S256x6400_S256 : S256x6400.Reduces [1] S256
  shapeCasts_S256_S256x1 : S256.ShapeCasts S256x1
  shapeCasts_S256x1_S256x1 : S256x1.ShapeCasts S256x1
  shapeCasts_S256x1_S256 : S256x1.ShapeCasts S256
  slices_S256_S255_1 : S256.Slices ![1] S255
  slices_S256_S1_0 : S256.Slices ![0] S1
  concatenates_S255_S1_S256_d0 : Shape.Concatenates [S255, S1] S256 0
  bcast_S_S256 : S_.BroadcastsInDim S256 (![] : Fin 0 → Fin S256.rank)
  inb_S256x3200_S256x3200_0_0 : ∀ a, (![0, 0] : Fin 2 → Nat) a + S256x3200.size a ≤ S256x3200.size a
  h_S256x3200 : 0 < S256x3200.numel
  rotates_S256x3200_d0 : S256x3200.Rotates 0 none
  broadcasts_S256x1_S256x3200 : S256x1.Broadcasts S256x3200
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S256x160000.size a
  hwx0_0 : ∀ i : grid0.Coords, EltTy.bits .f32 = 32 ∨ (Rect.block (s := S256x160000) S256x6400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3200.size a ≤ S256x160000.size a
  hwx1_0 : ∀ i : grid1.Coords, EltTy.bits .f32 = 32 ∨ (Rect.block (s := S256x160000) S256x3200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x3200.size a ≤ S256x160000.size a
  hwx1_2 : ∀ i : grid1.Coords, EltTy.bits .f32 = 32 ∨ (Rect.block (s := S256x160000) S256x3200.size (cc1_transform_2 i) (hinb1_2 i)).WholeWords (EltTy.packing .f32)

variable [Facts₀]

abbrev win0_0 : Pipeline.Window sig grid0 :=
  Pipeline.Window.ofSpec (Memref.whole main_arg0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S256x3200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x160000 : Shape := ⟨2, ![256, 160000]⟩
abbrev S_ : Shape := ⟨0, ![]⟩
abbrev S256 : Shape := ⟨1, ![256]⟩
abbrev S255x160000 : Shape := ⟨2, ![255, 160000]⟩
abbrev S1x160000 : Shape := ⟨2, ![1, 160000]⟩
abbrev S255 : Shape := ⟨1, ![255]⟩
abbrev S1 : Shape := ⟨1, ![1]⟩
abbrev S256x1 : Shape := ⟨2, ![256, 1]⟩

abbrev nBuf : Space → Nat
  | .hbm => 30
  | .vmem => 0
  | .smem => 0
  | _ => 0

abbrev bufTy : (tb : Table) → Fin (tcTables nBuf tb) → BufTy
  | .hbm, ⟨0, _⟩ => ⟨S256x160000, .f32⟩
  | .hbm, ⟨1, _⟩ => ⟨S256x160000, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S255x160000, .f32⟩
  | .hbm, ⟨8, _⟩ => ⟨S1x160000, .f32⟩
  | .hbm, ⟨9, _⟩ => ⟨S256x160000, .f32⟩
  | .hbm, ⟨10, _⟩ => ⟨S255, .f32⟩
  | .hbm, ⟨11, _⟩ => ⟨S1, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256x1, .f32⟩
  | .hbm, ⟨27, _⟩ => ⟨S256x160000, .f32⟩
  | .hbm, ⟨28, _⟩ => ⟨S256x160000, .f32⟩
  | .hbm, ⟨29, _⟩ => ⟨S256x160000, .f32⟩
  | _, _ => ⟨S256x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_call1_v0 : Ref sig .tc := ⟨.hbm, 10, rfl⟩
abbrev main_call1_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  reducesTo_S256x160000_S256_d1 : S256x160000.ReducesTo [1] S256
  h_S_ : 0 < S_.numel
  bcast_S_S256 : S_.BroadcastsInDim S256 (![] : Fin 0 → Fin S256.rank)
  slices_S256x160000_S255x160000_1_0 : S256x160000.Slices ![1, 0] S255x160000
  slices_S256x160000_S1x160000_0_0 : S256x160000.Slices ![0, 0] S1x160000
  concatenates_S255x160000_S1x160000_S256x160000_d0 : Shape.Concatenates [S255x160000, S1x160000] S256x160000 0
  slices_S256_S255_1 : S256.Slices ![1] S255
  slices_S256_S1_0 : S256.Slices ![0] S1
  concatenates_S255_S1_S256_d0 : Shape.Concatenates [S255, S1] S256 0
  bcast_S256_S256x1_0 : S256.BroadcastsInDim S256x1 (![0] : Fin 1 → Fin S256x1.rank)
  bcast_S256x1_S256x160000_0_1 : S256x1.BroadcastsInDim S256x160000 (![0, 1] : Fin 2 → Fin S256x160000.rank)

variable [Facts₀]

class Facts : Prop extends Facts₀ where

variable [Facts]
-- ==== Proof.Spec.lean ====
/-
  The mathematics both programs compute, over the extended reals, for a waveform array `x` of 256 rows and
  160000 columns.  Row `r` has the energy `(∑ j, x r j · x r j) / 160000`; each row is mixed with the row after it
  (the last row with the first), scaled by a per-row ratio: the entry `(r, j)` of the mixture is
  `x r j + q r · x (r + 1 mod 256) j`.  The ratio `q` is a fixed chain of operations of the energy vector (a quotient by the
  rotated energies bounded below, a square root, a clamp), which both programs apply in the same order, so it is
  carried here as one function of the energy vector and never opened.

  The one law that is not a rewriting of indices: a row's sum of squares taken stretch by stretch, 6400 columns at a
  time, is the sum over all 160000 columns.  Addition of extended reals is commutative and associative, so no
  finiteness is needed.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The waveform array's shape, a column's, and a vector of one entry per row. -/
abbrev SW : Shape := ⟨2, ![256, 160000]⟩
abbrev SQ : Shape := ⟨2, ![256, 1]⟩
abbrev SR : Shape := ⟨1, ![256]⟩
abbrev SR255 : Shape := ⟨1, ![255]⟩
abbrev SR1 : Shape := ⟨1, ![1]⟩
abbrev S0 : Shape := ⟨0, ![]⟩

/-- The square of entry `(r, j)`, and nothing past the last column. -/
def sq (x : SW.Idx → EReal) (r : Fin 256) (j : ℕ) : EReal :=
  if h : j < 160000 then x (ix2 r ⟨j, h⟩) * x (ix2 r ⟨j, h⟩) else 0

/-- Row `r`'s sum of squares over the columns below `b`. -/
def sqUpTo (x : SW.Idx → EReal) (r : Fin 256) (b : ℕ) : EReal := ∑ j ∈ Finset.range b, sq x r j

theorem sqUpTo_zero (x : SW.Idx → EReal) (r : Fin 256) : sqUpTo x r 0 = 0 := by
  unfold sqUpTo; simp

/-- One more stretch of 6400 columns. -/
theorem sqUpTo_add (x : SW.Idx → EReal) (r : Fin 256) (b : ℕ) (hb : b + 6400 ≤ 160000) :
    sqUpTo x r (b + 6400)
      = sqUpTo x r b + ∑ l : Fin 6400, x (ix2 r ⟨b + l.val, by have := l.isLt; omega⟩) * x (ix2 r ⟨b + l.val, by have := l.isLt; omega⟩) := by
  unfold sqUpTo
  refine (Finset.sum_range_add (sq x r) b 6400).trans (congrArg (_ + ·) ?_)
  refine (Finset.sum_range (fun l => sq x r (b + l))).trans (Finset.sum_congr rfl fun l _ => ?_)
  have hl : b + l.val < 160000 := by have := l.isLt; omega
  unfold sq
  rw [dif_pos hl]

/-- All the columns. -/
theorem sqUpTo_all (x : SW.Idx → EReal) (r : Fin 256) :
    sqUpTo x r 160000 = ∑ j : Fin 160000, x (ix2 r j) * x (ix2 r j) := by
  unfold sqUpTo
  refine (Finset.sum_range (sq x r)).trans (Finset.sum_congr rfl fun j _ => ?_)
  unfold sq
  rw [dif_pos j.isLt]

/-- Row `r`'s energy: the mean of its squares, the quotient as both programs take it. -/
def energy (x : SW.Idx → EReal) (r : Fin 256) : EReal :=
  Ideal.div (sqUpTo x r 160000) (Ideal.ofBits .f32 0x481C4000#32)

/-- The row after `r`, the first row after the last. -/
def next (r : Fin 256) : Fin 256 := ⟨(r.val + 1) % 256, Nat.mod_lt _ (by decide)⟩

/-- The mixture of `x` with its rows moved up by one, row `r` scaled by `q r`. -/
def mix (x : SW.Idx → EReal) (q : Fin 256 → EReal) : SW.Idx → EReal :=
  fun i => x i + q (i 0) * x (ix2 (next (i 0)) (i 1))

/-- The ratio vector from the energy vector: the quotient of each energy by the next row's, that one bounded below by
    the small constant, its square root, clamped between the two bounds. One chain of operations, the same in both programs. -/
def ratio (h1 : SR.Slices ![1] SR255) (h0 : SR.Slices ![0] SR1) (hc : Shape.Concatenates [SR255, SR1] SR 0)
    (hb : S0.BroadcastsInDim SR (![] : Fin 0 → Fin SR.rank)) (e : FVec Ideal SR .f32) : FVec Ideal SR .f32 :=
  minimumf (broadcastInDim SR ![] hb (id (constant S0 .f32 0x42480000#32)))
    (maximumf (broadcastInDim SR ![] hb (id (constant S0 .f32 0x3CA3D70A#32)))
      (Host.sqrt (Host.divf e
        (maximumf (concatenate SR 0 [⟨SR255, extractStridedSlice SR255 ![1] e h1⟩, ⟨SR1, extractStridedSlice SR1 ![0] e h0⟩] hc)
          (broadcastInDim SR ![] hb (constant S0 .f32 0x2EDBE6FF#32))))))

end Cert.Spec

end
-- ==== Proof.Energy.lean ====
/-
  The first region: 25 points, each adding to a column of 256 running sums the squares of one block of 6400 columns.
  At the first point the column starts from zero; at the last point the finished sums are divided by the row length
  160000.  By induction on the point the column holds, after point `n`, each row's sum of squares over the first
  `6400 (n + 1)` columns, so after the last point it holds each row's energy; the one write-back, at the last point,
  covers the whole column array.
-/
import proofs.«103259_j55559696941464_1_alg».proof.Proof.Gen.KernelIdeal.Frame
import proofs.«103259_j55559696941464_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.Tactic

noncomputable section

namespace Cert.KernelIdeal.Energy

open Cert.KernelIdeal Cert.KernelIdeal.Gen Idealize.ShloMosaic Idealize.ShloMosaic.TcCoe Idealize.SL.Sem Idealize.ShloMosaic.ValueIdx
open Idealize.ShloMosaic.Pipeline (Dat)

section Cases
variable {F : FTy → Type} [FloatOps F]

/-- The zero offsets of a whole-buffer access, spelt as a constant function. -/
theorem hz : (![0, 0] : Fin 2 → Nat) = fun _ => 0 := funext fun a => by fin_cases a <;> rfl

/-- A middle point: the one store leaves the update of the block and the column as found. -/
theorem out_B (c : Dev nD) (i : grid0.Coords) (a1 : Memref sig .tc .vmem S256x6400 .f32) (h1 : a1.IsWhole)
    (a2 : Memref sig .tc .vmem S256x1 .f32) (h2 : a2.IsWhole) (hc0 : ¬cond0_0 i) (hc1 : ¬cond0_1 i)
    (x : Vec F S256x6400 .f32) (xo : Vec F S256x1 .f32) :
    out0_B_1 c i a1 h1 a2 h2 hc0 hc1 x xo = k0_pay2 x xo := by
  unfold out0_B_1
  rw [View.read_writes_eq_canon _ _ _ (cover0_B_1 c i a1 h1 a2 h2 hc0 hc1 x xo)]
  unfold kernelRun0_B
  dsimp only
  rw [View.canon_unit_zero (S := S256x1) hz]
  simp only [View.readAt_eq_ld, h1.read_unread, h2.read_unread, View.ld_unit_zero (S := S256x6400) hz,
    View.ld_unit_zero (S := S256x1) hz]

/-- The first point: the zero column is stored, read back, and the update of the block and the zero column is left. -/
theorem out_A (c : Dev nD) (i : grid0.Coords) (a1 : Memref sig .tc .vmem S256x6400 .f32) (h1 : a1.IsWhole)
    (a2 : Memref sig .tc .vmem S256x1 .f32) (h2 : a2.IsWhole) (hc0 : cond0_0 i) (hc1 : ¬cond0_1 i)
    (x : Vec F S256x6400 .f32) :
    out0_A_1 c i a1 h1 a2 h2 hc0 hc1 x = k0_pay2 x k0_pay1 := by
  unfold out0_A_1
  rw [View.read_writes_eq_canon _ _ _ (cover0_A_1 c i a1 h1 a2 h2 hc0 hc1 x)]
  unfold kernelRun0_A
  dsimp only
  sl_unfold_words
  rw [View.canon_cons_unit_zero (S := S256x1) hz, View.readCov_unit_zero (S := S256x1) _ hz]
  simp only [View.readAt_eq_ld, h1.read_unread, h2.read_unread, View.ld_unit_zero (S := S256x6400) hz,
    View.ld_unit_zero (S := S256x1) hz]

/-- The last point: the update is stored, read back, and its quotient by the row length is left. -/
theorem out_C (c : Dev nD) (i : grid0.Coords) (a1 : Memref sig .tc .vmem S256x6400 .f32) (h1 : a1.IsWhole)
    (a2 : Memref sig .tc .vmem S256x1 .f32) (h2 : a2.IsWhole) (hc0 : ¬cond0_0 i) (hc1 : cond0_1 i)
    (x : Vec F S256x6400 .f32) (xo : Vec F S256x1 .f32) :
    out0_C_1 c i a1 h1 a2 h2 hc0 hc1 x xo = k0_pay3 (k0_pay2 x xo) := by
  unfold out0_C_1
  rw [View.read_writes_eq_canon _ _ _ (cover0_C_1 c i a1 h1 a2 h2 hc0 hc1 x xo)]
  unfold kernelRun0_C
  dsimp only
  sl_unfold_words
  rw [View.canon_cons_unit_zero (S := S256x1) hz, View.readCov_unit_zero (S := S256x1) _ hz]
  simp only [View.readAt_eq_ld, h1.read_unread, h2.read_unread, View.ld_unit_zero (S := S256x6400) hz,
    View.ld_unit_zero (S := S256x1) hz]

end Cases

section Payloads

/-- The reset column is zero in every row. -/
theorem pay1_apply (r : Fin 256) : k0_pay1 (F := Ideal) (ix2 r 0) = 0 := by
  unfold k0_pay1
  exact Ideal.ofBits_zero_f32

/-- One update: the column entry plus the row's sum of squares over the block. -/
theorem pay2_apply (x : Vec Ideal S256x6400 .f32) (acc : Vec Ideal S256x1 .f32) (r : Fin 256) :
    k0_pay2 x acc (ix2 r 0) = acc (ix2 r 0) + ∑ l : Fin 6400, x (ix2 r l) * x (ix2 r l) := by
  unfold k0_pay2
  rw [shapeCast_self, addf_apply]
  congr 1
  rw [shapeCast_apply _ _ (ix2 r 0) (ix1 r) (by rw [Shape.rowMajor_val_one, Shape.rowMajor_val_two]; simp)]
  refine (Ideal.multiReduction_add_single (φ := .f32) (mulf x x) 0x00000000#32 reduces_S256x6400_S256 (.inl rfl) rfl (ix1 r)).trans ?_
  refine Finset.sum_congr rfl fun l _ => ?_
  have hl : reduces_S256x6400_S256.lift (ix1 r) l = ix2 r l :=
    funext fun a => Fin.ext (match a with | ⟨0, _⟩ => rfl | ⟨1, _⟩ => rfl)
  rw [hl]
  rfl

/-- The last step: the column entry over the row length. -/
theorem pay3_apply (acc : Vec Ideal S256x1 .f32) (r : Fin 256) :
    k0_pay3 acc (ix2 r 0) = Ideal.div (acc (ix2 r 0)) (Ideal.ofBits .f32 0x481C4000#32) := by
  unfold k0_pay3
  rw [shapeCast_self, divf_apply]
  rfl

end Payloads

variable (V : (c : Dev nD) → (b : Ref sig .tc) → Buf (Elt Ideal) ((c : Thread nD τ).loc b))

/-- The waveform array as the first region finds it. -/
abbrev wave (c : Dev nD) : S256x160000.Idx → EReal := V c main_arg0

/-- The block index of the waveform window at point t is (0, t). -/
theorem hidx : ∀ t : Fin cfg0.N, win0_0.index t 0 = 0 ∧ win0_0.index t 1 = t.val :=
  (by decide +kernel : ∀ t : Fin grid0.N, win0_0.index t 0 = 0 ∧ win0_0.index t 1 = t.val)

/-- The waveform block the body finds at point n. -/
abbrev blkAt (c : Dev nD) (n : ℕ) (hn : n < cfg0.N) : Vec Ideal S256x6400 .f32 := iblk0 V c 0 ⟨n, hn⟩

/-- The block at point n read at (r, l) is the waveform at (r, 6400 n + l). -/
theorem blkAt_apply (c : Dev nD) (n : ℕ) (hn : n < cfg0.N) (r : Fin 256) (l : Fin 6400) (h : 6400 * n + l.val < 160000) :
    blkAt V c n hn (ix2 r l) = wave V c (ix2 r ⟨6400 * n + l.val, h⟩) := by
  unfold blkAt iblk0
  rw [View.read_apply]
  show V c main_arg0 _ = V c main_arg0 _
  congr 1
  funext a
  apply Fin.ext
  match a with
  | ⟨0, _⟩ => show win0_0.index ⟨n, hn⟩ 0 * 256 + 1 * r.val = r.val; rw [(hidx ⟨n, hn⟩).1]; omega
  | ⟨1, _⟩ => show win0_0.index ⟨n, hn⟩ 1 * 6400 + 1 * l.val = 6400 * n + l.val; rw [(hidx ⟨n, hn⟩).2]; show n * 6400 + 1 * l.val = 6400 * n + l.val; omega

/-- One more block: a row's squares up to column 6400 n, plus the row's squares over block n, are its squares up to
    column 6400 (n + 1). -/
theorem step (c : Dev nD) (r : Fin 256) (n : ℕ) (hn : n < cfg0.N) (h25 : n < 25) (acc : EReal)
    (hacc : acc = Cert.Spec.sqUpTo (wave V c) r (6400 * n)) :
    acc + ∑ l : Fin 6400, blkAt V c n hn (ix2 r l) * blkAt V c n hn (ix2 r l)
      = Cert.Spec.sqUpTo (wave V c) r (6400 * (n + 1)) := by
  subst hacc
  rw [show 6400 * (n + 1) = 6400 * n + 6400 from Nat.mul_succ 6400 n, Cert.Spec.sqUpTo_add (wave V c) r (6400 * n) (by omega)]
  congr 1
  refine Finset.sum_congr rfl fun l _ => ?_
  rw [blkAt_apply V c n hn r l (by have := l.isLt; omega)]

/-- The invariant: after point n, not the last, the column holds in row r the row's squares up to column 6400 (n + 1). -/
theorem outsAt_eq (c : Dev nD) (r : Fin 256) : ∀ (n : ℕ) (hn : n < cfg0.N), n + 1 < 25 →
    (outsAt0 V c n hn : Vec Ideal S256x1 .f32) (ix2 r 0) = Cert.Spec.sqUpTo (wave V c) r (6400 * (n + 1))
  | 0, hn, _ => by
    rw [outsAt0_A V c ⟨0, hn⟩ rfl (by show ¬(0 % 25 = 24); decide), out_A, pay2_apply, pay1_apply]
    exact step V c r 0 hn (by omega) 0 (Cert.Spec.sqUpTo_zero _ _).symm
  | n + 1, hn, h25 => by
    have hB0 : ¬(⟨n + 1, hn⟩ : Fin cfg0.N).val % 25 = 0 := by dsimp only; omega
    have hB1 : ¬(⟨n + 1, hn⟩ : Fin cfg0.N).val % 25 = 24 := by dsimp only; omega
    rw [outsAt0_B V c ⟨n + 1, hn⟩ hB0 hB1, out_B, pay2_apply]
    exact step V c r (n + 1) hn (by omega) _ (outsAt_eq c r n _ (by omega))

/-- After the last point the column holds each row's energy. -/
theorem outsAt_last (c : Dev nD) (r : Fin 256) (h : 24 < cfg0.N) :
    (outsAt0 V c 24 h : Vec Ideal S256x1 .f32) (ix2 r 0) = Cert.Spec.energy (wave V c) r := by
  rw [outsAt0_C V c ⟨24, h⟩ (by show ¬(24 % 25 = 0); decide) (by show 24 % 25 = 24; decide), out_C, pay3_apply, pay2_apply]
  unfold Cert.Spec.energy
  refine congrArg (Ideal.div · (Ideal.ofBits .f32 0x481C4000#32)) ?_
  have h23 : 23 < cfg0.N := by omega
  have hs := step V c r 24 h (by omega) (outsAt0 V c 23 h23 (ix2 r 0)) (outsAt_eq V c r 23 h23 (by omega))
  have h160 : 6400 * (24 + 1) = 160000 := by norm_num
  rw [h160] at hs
  exact hs

/-- The column of energies, as contents of the column array. -/
abbrev result (c : Dev nD) : Buf (Elt Ideal) ((c : Thread nD τ).loc main_v0) :=
  fun i : S256x1.Idx => Cert.Spec.energy (wave V c) (i 0)

/-- The last point of the grid. -/
abbrev tLast : Fin cfg0.N := ⟨24, by rw [show cfg0.N = 25 from N_0]; decide⟩

/-- The one write-back, at the last point, writes the energies: its block is the whole column array. -/
theorem flushed_eq (c : Dev nD) (t : Fin cfg0.N) (hf : (cfg0.win 1).flush t = true) :
    (dat0 V c).flushed 1 t = ((cfg0.win 1).blk t).view.read (Elt Ideal) (result V c) := by
  have hN : cfg0.N = 25 := N_0
  have h24 : t.val = 24 := by have := (flush0_1 t).mp hf; have := t.isLt; omega
  obtain rfl : t = tLast := Fin.ext h24
  show (cfg0.win 1).cut (grid0.coords tLast) ((dat0 V c).after 1 tLast) = _
  rw [after0_1]
  have hz' : (fun a => win0_1.index tLast a * main_v0.ty.shape.size a) = fun _ => 0 := funext fun a => by fin_cases a <;> decide
  refine Eq.trans ?_ (Memref.read_access_unit_zero (Elt Ideal) main_v0 hz' (fun a => by rw [congrFun hz' a]; simp) (result V c)).symm
  funext y
  obtain ⟨r, j, rfl⟩ : ∃ (r : Fin 256) (j : Fin 1), y = ix2 r j := ⟨y 0, y 1, eq_ix2 y⟩
  obtain rfl : j = 0 := Subsingleton.elim _ _
  exact outsAt_last V c r _

/-- After the first region the column array holds each row's energy. -/
theorem final (c : Dev nD) :
    (dat0 V c).arrAt 1 cfg0.N = (fun i : S256x1.Idx => Cert.Spec.energy (wave V c) (i 0)) :=
  (dat0 V c).arrAt_eq_of_cover 1 (result V c) (flushed_eq V c) fun i =>
    ⟨tLast, (flush0_1 tLast).mpr rfl, by
      show i ∈ ((View.whole main_v0).slice (win0_1.rect tLast)).set
      rw [View.set_slice_whole, Rect.mem_set_unit]
      intro a
      have h0 : (i 0 : Nat) < 256 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 256 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

end Cert.KernelIdeal.Energy

end
-- ==== Proof.Mix.lean ====
/-
  The second region: 50 blocks of 3200 columns, each holding all 256 rows.  The body stores, at entry `(r, l)` of its
  block, the waveform entry plus the row's ratio times the entry one row below (the last row wrapping to the first: a
  rotation of the 256 rows by 255 reads one row ahead).  Because a block holds every row, the rotation inside a block is
  the rotation of the whole array's rows, so block `t` of the result is block `t` of the mixture of the whole arrays,
  and the 50 blocks fill the array.
-/
import proofs.«103259_j55559696941464_1_alg».proof.Proof.Gen.KernelIdeal.Frame
import proofs.«103259_j55559696941464_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.Tactic

noncomputable section

namespace Cert.KernelIdeal.Mix

open Cert.KernelIdeal Cert.KernelIdeal.Gen Idealize.ShloMosaic Idealize.ShloMosaic.TcCoe Idealize.SL.Sem Idealize.ShloMosaic.ValueIdx
open Idealize.ShloMosaic.Pipeline (Dat)

/-- The two zero offsets of a whole block, as the constant zero function. -/
theorem zero_offsets : (![0, 0] : Fin 2 → Nat) = fun _ => 0 := funext fun a => by fin_cases a <;> rfl

/-- One entry of the block the body stores: entry `(r, l)` of the waveform block plus the row's ratio times the
    entry of the row after, the last row taking the first (the rotation by 255 of 256 rows reads one row ahead). -/
theorem pay_apply (x : Vec Ideal S256x3200 .f32) (q : Vec Ideal S256x1 .f32) (r : Fin 256) (l : Fin 3200) :
    k1_pay1 x q (ix2 r l) = x (ix2 r l) + q (ix2 r 0) * x (ix2 (Cert.Spec.next r) l) := by
  unfold k1_pay1
  rw [addf_apply, mulf_apply, shapeCast_self]
  rw [broadcastTo_apply q broadcasts_S256x1_S256x3200 (ix2 r l) (ix2 r 0) (fun a => by
        match a with
        | ⟨0, _⟩ => rfl
        | ⟨1, _⟩ => rfl)]
  rw [dynamicRotate_apply 0 255#32 x rotates_S256x3200_d0 (ix2 r l) (ix2 (Cert.Spec.next r) l) (fun b => by
        match b with
        | ⟨0, _⟩ =>
          show (r.val + 1) % 256 = (r.val + 256 - 255 % 256) % 256
          have := r.isLt; omega
        | ⟨1, _⟩ => rfl)]

variable (V : (c : Dev nD) → (b : Ref sig .tc) → Buf (Elt Ideal) ((c : Thread nD τ).loc b))

/-- The waveform array and the column of ratios as the second region finds them. -/
abbrev wave (c : Dev nD) : S256x160000.Idx → EReal := V c main_arg0
abbrev scale (c : Dev nD) : S256x1.Idx → EReal := V c main_v8

/-- The block index of each window at each of the 50 points: the waveform's and the result's blocks move along the
    columns with the point, the column of ratios stays. -/
theorem idx_facts : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = t.val :=
  (by decide +kernel : ∀ t : Fin grid1.N, _)

/-- What point `t` writes back is block `t` of the mixture of the whole arrays. -/
theorem flushed_eq (c : Dev nD) (t : Fin cfg1.N) :
    (dat1 V c).flushed 2 t
      = ((cfg1.win 2).blk t).view.read (Elt Ideal) (Cert.Spec.mix (wave V c) (fun r => scale V c (ix2 r 0))) := by
  show (cfg1.win 2).cut (grid1.coords t) ((dat1 V c).after 2 t) = _
  rw [after1_2]
  unfold out1_2
  rw [View.canon_unit_zero zero_offsets]
  simp only [View.ld_unit_zero (S := S256x3200) zero_offsets, View.ld_unit_zero (S := S256x1) zero_offsets]
  obtain ⟨e0, e1, e2, e3, e4, e5⟩ := idx_facts t
  have ht : t.val < 50 := lt_of_lt_of_eq t.isLt N_1
  funext j
  -- the row, the column inside the block, and the column of the whole array under it
  have hr : (j 0).val < 256 := (j 0).isLt
  have hl : (j 1).val < 3200 := (j 1).isLt
  let r : Fin 256 := ⟨(j 0).val, hr⟩
  let l : Fin 3200 := ⟨(j 1).val, hl⟩
  let col : Fin 160000 := ⟨t.val * 3200 + (j 1).val, by omega⟩
  have hx : (win1 2).xinj (grid1.coords t) j = ix2 r l := funext fun a => by
    match a with
    | ⟨0, _⟩ => rfl
    | ⟨1, _⟩ => rfl
  refine (congrArg (k1_pay1 (iblk1 V c 0 t) (iblk1 V c 1 t)) hx).trans ?_
  rw [pay_apply]
  -- where each block's entry sits in its whole array: block index times block size plus the place inside
  have hi : ((cfg1.win 2).blk t).view.emb j = ix2 r col := Shape.idx_ext₂
    (show win1_2.index t (0 : Fin 2) * 256 + 1 * (j 0).val = (j 0).val by omega)
    (show win1_2.index t (1 : Fin 2) * 3200 + 1 * (j 1).val = t.val * 3200 + (j 1).val by omega)
  have h0 : ((cfg1.win 0).blk t).view.emb (ix2 r l) = ix2 r col := Shape.idx_ext₂
    (show win1_0.index t (0 : Fin 2) * 256 + 1 * (j 0).val = (j 0).val by omega)
    (show win1_0.index t (1 : Fin 2) * 3200 + 1 * (j 1).val = t.val * 3200 + (j 1).val by omega)
  have h2 : ((cfg1.win 0).blk t).view.emb (ix2 (Cert.Spec.next r) l) = ix2 (Cert.Spec.next r) col := Shape.idx_ext₂
    (show win1_0.index t (0 : Fin 2) * 256 + 1 * (Cert.Spec.next r).val = (Cert.Spec.next r).val by omega)
    (show win1_0.index t (1 : Fin 2) * 3200 + 1 * (j 1).val = t.val * 3200 + (j 1).val by omega)
  have h1 : ((cfg1.win 1).blk t).view.emb (ix2 r 0) = ix2 r 0 := Shape.idx_ext₂
    (show win1_1.index t (0 : Fin 2) * 256 + 1 * (j 0).val = (j 0).val by omega)
    (show win1_1.index t (1 : Fin 2) * 1 + 1 * 0 = 0 by omega)
  show wave V c (((cfg1.win 0).blk t).view.emb (ix2 r l))
      + scale V c (((cfg1.win 1).blk t).view.emb (ix2 r 0)) * wave V c (((cfg1.win 0).blk t).view.emb (ix2 (Cert.Spec.next r) l))
    = Cert.Spec.mix (wave V c) (fun r => scale V c (ix2 r 0)) (((cfg1.win 2).blk t).view.emb j)
  rw [h0, h1, h2, hi]
  rfl

/-- An index of the result array is in point `t`'s block exactly when each coordinate is in the block's range on
    its axis. -/
theorem mem_blk (t : Fin cfg1.N) (i : S256x160000.Idx) :
    i ∈ ((cfg1.win 2).blk t).view.set ↔ ∀ a : Fin 2, win1_2.index t a * S256x3200.size a ≤ (i a).val
      ∧ (i a).val < win1_2.index t a * S256x3200.size a + S256x3200.size a := by
  show i ∈ ((View.whole main_v9).slice (win1_2.rect t)).set ↔ _
  rw [View.set_slice_whole, Rect.mem_set_unit]
  exact Iff.rfl

/-- The 50 blocks fill the result array: column `j` is in the block of point `j / 3200`, and every block holds all
    256 rows. -/
theorem covered (i : S256x160000.Idx) :
    ∃ t : Fin cfg1.N, (cfg1.win 2).flush t = true ∧ i ∈ ((cfg1.win 2).blk t).view.set := by
  have hi0 : (i 0).val < 256 := (i 0).isLt
  have hi1 : (i 1).val < 160000 := (i 1).isLt
  let t : Fin cfg1.N := ⟨(i 1).val / 3200, lt_of_lt_of_eq (by omega : (i 1).val / 3200 < 50) N_1.symm⟩
  have htv : t.val = (i 1).val / 3200 := rfl
  obtain ⟨e0, e1, e2, e3, e4, e5⟩ := idx_facts t
  refine ⟨t, flush1_2 t, ?_⟩
  rw [mem_blk]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 3200 ≤ (i 1).val ∧ (i 1).val < win1_2.index t (1 : Fin 2) * 3200 + 3200
    omega

/-- After the second region the result array holds the mixture. -/
theorem final (c : Dev nD) :
    (dat1 V c).arrAt 2 cfg1.N = Cert.Spec.mix (wave V c) (fun r => scale V c (ix2 r 0)) := by
  exact (dat1 V c).arrAt_eq_of_cover 2 _ (fun t _ => flushed_eq V c t) covered

end Cert.KernelIdeal.Mix

end
-- ==== Proof.HostSide.lean ====
/-
  The host operations between the two regions, and how the regions' arrays connect.  The first region leaves a column
  of row energies; the host operations read it as a vector, form the ratio vector by the shared chain of operations and
  lay it out as a column again, which the second region reads beside the unchanged waveform array.
-/
import proofs.«103259_j55559696941464_1_alg».proof.Proof.Gen.KernelIdeal.Frame
import proofs.«103259_j55559696941464_1_alg».proof.Proof.Spec
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem Idealize.ShloMosaic.ValueIdx
open Idealize.ShloMosaic.StableHlo

/-- A vector of 256 entries laid out as a column: entry `(r, 0)` is entry `r`. -/
theorem column_of_vector {α : Type} (v : S256.Idx → α) (h : S256.ShapeCasts S256x1) (r : Fin 256) :
    shapeCast S256x1 v h (ix2 r 0) = v (ix1 r) := by
  refine shapeCast_apply v h (ix2 r 0) (ix1 r) ?_
  rw [Shape.rowMajor_val_one, Shape.rowMajor_val_two]
  show r.val = r.val * 1 + 0
  omega

/-- A column of 256 entries read as a vector: entry `r` is entry `(r, 0)`. -/
theorem vector_of_column {α : Type} (u : S256x1.Idx → α) (h : S256x1.ShapeCasts S256) :
    shapeCast S256 u h = fun i : S256.Idx => u (ix2 (i 0) 0) := by
  funext i
  refine shapeCast_apply u h i (ix2 (i 0) 0) ?_
  rw [Shape.rowMajor_val_one, Shape.rowMajor_val_two]
  show (i 0).val * 1 + 0 = (i 0).val
  omega

variable (m : (ℓ : Loc nD τ sig) → Buf (Elt Ideal) ℓ) (ρ : Dev nD → PrngReg)

/-- The waveform array reaches the second region as launched: no region and no host operation writes it. -/
theorem entry_wave (c : Dev nD) : V6 m ρ c main_arg0 = m ((c : Thread nD τ).loc main_arg0) :=
  (((W7_arr m ρ c 0).trans (((dat1 (V6 m ρ) c).arrAt_in 0 rfl _).trans (A_eq1 (V6 m ρ) c 0))).symm).trans (W7_main_arg0 m ρ c)

/-- The waveform array as the first region finds it is the launch contents. -/
theorem launch_wave (c : Dev nD) : V0 m ρ c main_arg0 = m ((c : Thread nD τ).loc main_arg0) := rfl

/-- The column of ratios the second region reads is the shared chain of operations of the first region's column of
    energies, read as a vector and laid out as a column again: the host operations between the two regions, composed. -/
theorem entry_scale (c : Dev nD) :
    (V6 m ρ c main_v8 : S256x1.Idx → EReal)
      = shapeCast S256x1 (Cert.Spec.ratio slices_S256_S255_1 slices_S256_S1_0 concatenates_S255_S1_S256_d0 bcast_S_S256
          (shapeCast S256 (W1 m ρ c (Proc.devRef .tc main_v0) : S256x1.Idx → EReal) shapeCasts_S256x1_S256)) shapeCasts_S256_S256x1 := by
  show StableHlo.after hostOps1_4 (StableHlo.after hostOps1_3 (StableHlo.after hostOps1_2 (StableHlo.after hostOps1_1
    (StableHlo.after hostOps1 (W1 m ρ c))))) (Proc.devRef .tc main_v8) = _
  after_results
  rfl

/-- What the first region leaves in its output array is what the host operations read. -/
theorem energies (c : Dev nD) : W1 m ρ c (Proc.devRef .tc main_v0) = (dat0 (V0 m ρ) c).arrAt 1 cfg0.N := W1_arr m ρ c 1

/-- What the second region leaves in its output array is the program's result. -/
theorem result_array (c : Dev nD) : W7 m ρ c (Proc.devRef .tc main_v9) = (dat1 (V6 m ρ) c).arrAt 2 cfg1.N := W7_arr m ρ c 2

end Cert.KernelIdeal.HostSide

end
-- ==== Proof.RefSide.lean ====
/-
  The reference, stage by stage, is the specification: its row energies are the mean of squares over all 160000
  columns; its ratio vector is the shared chain of operations of that energy vector; its "rows moved up by one" array,
  a join of rows 1 to 255 with row 0, reads the row after; and its result is the mixture under that ratio.
-/
import proofs.«103259_j55559696941464_1_alg».proof.Proof.Gen.ReferenceIdeal.Run
import proofs.«103259_j55559696941464_1_alg».proof.Proof.Gen.ReferenceIdeal.Read
import proofs.«103259_j55559696941464_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-- The column index the row sum reads at row `r`, column `k`, is the entry `(r, k)`. -/
theorem idx_sum (r : Fin 256) (k : Fin 160000) : idx_main_v1 (ix1 r) k = ix2 r k :=
  funext fun a => Fin.ext (by match a with | ⟨0, _⟩ => rfl | ⟨1, _⟩ => rfl)

/-- The broadcast of the ratio vector along the columns reads row `r`'s ratio at every entry `(r, j)`. -/
theorem idx_bcast (r : Fin 256) (j : Fin 160000) : idx_main_v11 (idx_main_v12 (ix2 r j)) = ix1 r :=
  funext fun a => Fin.ext (by match a with | ⟨0, _⟩ => rfl)

/-- The rows moved up by one: the joined array's entry `(r, j)` is the waveform's entry in the row after `r`.
    Rows below the last come from the first piece (rows 1 to 255), the last row from the second piece (row 0). -/
theorem roll_apply (x : S256x160000.Idx → EReal) (r : Fin 256) (j : Fin 160000) :
    val_main_v4 (F := Ideal) x (ix2 r j) = x (ix2 (Cert.Spec.next r) j) := by
  unfold val_main_v4
  by_cases hr : r.val < 255
  · rw [concatenate_pair_apply_left (t := S256x160000) (s₁ := S255x160000) (s₂ := S1x160000) (0 : Fin 2) _ _
      concatenates_S255x160000_S1x160000_S256x160000_d0 (ix2 r j) rfl (ix2 (⟨r.val, hr⟩ : Fin 255) j)
      (fun b => by match b with | ⟨0, _⟩ => rfl | ⟨1, _⟩ => rfl)]
    rw [val_main_call0_v0_apply]
    refine congrArg x (funext fun a => Fin.ext ?_)
    match a with
    | ⟨0, _⟩ => show 1 + r.val = (r.val + 1) % 256; omega
    | ⟨1, _⟩ => rfl
  · have hr' : r.val = 255 := by have := r.isLt; omega
    rw [concatenate_pair_apply_right (t := S256x160000) (s₁ := S255x160000) (s₂ := S1x160000) (0 : Fin 2) _ _
      concatenates_S255x160000_S1x160000_S256x160000_d0 (ix2 r j) rfl rfl (ix2 (⟨0, Nat.one_pos⟩ : Fin 1) j)
      (fun b hb => by match b with | ⟨0, _⟩ => exact absurd rfl hb | ⟨1, _⟩ => rfl)
      (by show 0 + 255 = r.val; omega)]
    rw [val_main_call0_v1_apply]
    refine congrArg x (funext fun a => Fin.ext ?_)
    match a with
    | ⟨0, _⟩ => show 0 = (r.val + 1) % 256; omega
    | ⟨1, _⟩ => rfl

/-- The reference's energy vector: each row's mean of squares. -/
theorem energy_eq (x : S256x160000.Idx → EReal) :
    val_main_v3 (F := Ideal) x = (fun i : S256.Idx => Cert.Spec.energy x (i 0)) := by
  funext i
  obtain ⟨r, rfl⟩ : ∃ r : Fin 256, i = ix1 r := ⟨i 0, eq_ix1 i⟩
  rw [val_main_v3_apply, val_main_v1_apply, val_main_v2_apply, val_main_cst_0_apply, val_main_cst_apply]
  simp only [val_main_v0_apply, idx_sum, Ideal.hostDivf_def, Ideal.ofBits_def, Ideal.mulf_def,
    Ideal.ofBits_zero_f32, zero_add]
  unfold Cert.Spec.energy
  rw [Cert.Spec.sqUpTo_all]

/-- The reference's ratio vector is the shared chain of its energy vector. -/
theorem ratio_eq (x : S256x160000.Idx → EReal) :
    val_main_v10 (F := Ideal) x
      = Cert.Spec.ratio slices_S256_S255_1 slices_S256_S1_0 concatenates_S255_S1_S256_d0 bcast_S_S256 (val_main_v3 (F := Ideal) x) := by
  unfold val_main_v10 val_main_call2_v4 val_main_call2_v3 val_main_cst_3 val_main_call2_v2 val_main_call2_v1
    val_main_call2_v0 val_main_cst_2 val_main_v9 val_main_v8 val_main_v7 val_main_v6 val_main_cst_1 val_main_v5
    val_main_call1_v0 val_main_call1_v1 Cert.Spec.ratio
  rfl

/-- The reference's result is the mixture of the waveforms under that ratio. -/
theorem result_eq (x : S256x160000.Idx → EReal) :
    val_main_v14 (F := Ideal) x
      = Cert.Spec.mix x (fun r => Cert.Spec.ratio slices_S256_S255_1 slices_S256_S1_0 concatenates_S255_S1_S256_d0 bcast_S_S256
          (fun i : S256.Idx => Cert.Spec.energy x (i 0)) (ix1 r)) := by
  funext i
  obtain ⟨r, j, rfl⟩ : ∃ (r : Fin 256) (j : Fin 160000), i = ix2 r j := ⟨i 0, i 1, eq_ix2 i⟩
  rw [val_main_v14_apply, val_main_v13_apply, val_main_v12_apply, val_main_v11_apply, idx_bcast, roll_apply,
    ratio_eq, energy_eq]
  unfold Cert.Spec.mix
  simp only [Ideal.addf_def, Ideal.mulf_def]

end Cert.ReferenceIdeal.RefValue

end
-- ==== Proof.lean ====
/-
  The certificate of the segment mixer: a kernel of two regions (each row's mean of squares accumulated over 25
  stretches of columns; then every entry mixed with the entry one row below, scaled by a per-row ratio) against the
  reference that computes the same with whole-array operations.

  Over the extended reals both programs compute, for a waveform array `x`, the array whose entry `(r, j)` is
  `x r j + q r · x (r + 1 mod 256) j`, where `q` is one fixed chain of operations (quotient by the next row's energy
  bounded below, square root, clamp) of the vector of row energies `(∑ j, x r j²) / 160000`.  The kernel's first region
  leaves the energies as a column (the sum taken 6400 columns at a time: regrouping a sum of extended reals), the host
  operations between the regions form the ratio column by the same chain as the reference, and the second region's
  blocks, each holding all 256 rows, tile the mixture.  No finiteness of the input is used.
-/
import proofs.«103259_j55559696941464_1_alg».proof.Defs
import proofs.«103259_j55559696941464_1_alg».proof.Proof.Gen.Kernel
import proofs.«103259_j55559696941464_1_alg».proof.Proof.Gen.Kernel.Skeleton
import proofs.«103259_j55559696941464_1_alg».proof.Proof.Gen.Kernel.Launch
import proofs.«103259_j55559696941464_1_alg».proof.Proof.Gen.Kernel.Points
import proofs.«103259_j55559696941464_1_alg».proof.Proof.Gen.Kernel.Frame
import proofs.«103259_j55559696941464_1_alg».proof.Proof.Gen.KernelIdeal
import proofs.«103259_j55559696941464_1_alg».proof.Proof.Gen.KernelIdeal.Skeleton
import proofs.«103259_j55559696941464_1_alg».proof.Proof.Gen.KernelIdeal.Launch
import proofs.«103259_j55559696941464_1_alg».proof.Proof.Gen.KernelIdeal.Points
import proofs.«103259_j55559696941464_1_alg».proof.Proof.Gen.KernelIdeal.Frame
import proofs.«103259_j55559696941464_1_alg».proof.Proof.Gen.ReferenceIdeal
import proofs.«103259_j55559696941464_1_alg».proof.Proof.Gen.ReferenceIdeal.Run
import proofs.«103259_j55559696941464_1_alg».proof.Proof.Gen.ReferenceIdeal.Read
import proofs.«103259_j55559696941464_1_alg».proof.Proof.Gen.Pre_finite_inputs
import proofs.«103259_j55559696941464_1_alg».proof.Proof.KernelRun
import proofs.«103259_j55559696941464_1_alg».proof.Proof.Spec
import proofs.«103259_j55559696941464_1_alg».proof.Proof.Energy
import proofs.«103259_j55559696941464_1_alg».proof.Proof.Mix
import proofs.«103259_j55559696941464_1_alg».proof.Proof.HostSide
import proofs.«103259_j55559696941464_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The mixture both programs end at, as one function of the waveform array. -/
def mixture (x : Cert.Spec.SW.Idx → EReal) : Cert.Spec.SW.Idx → EReal :=
  Cert.Spec.mix x (fun r => Cert.Spec.ratio Cert.KernelIdeal.Gen.slices_S256_S255_1 Cert.KernelIdeal.Gen.slices_S256_S1_0
    Cert.KernelIdeal.Gen.concatenates_S255_S1_S256_d0 Cert.KernelIdeal.Gen.bcast_S_S256
    (fun i : Cert.Spec.SR.Idx => Cert.Spec.energy x (i 0)) (ix1 r))

section Kernel
open Cert.KernelIdeal Cert.KernelIdeal.Gen

/-- The kernel's result array: the second region's mixture of the waveform array under the column the host operations
    made of the first region's energies, which read as a vector is the energy vector. -/
theorem kernel_result (m : (ℓ : Loc nD τ sig) → Buf (Elt Ideal) ℓ) (ρ : Dev nD → PrngReg) (c : Dev nD) :
    W7 m ρ c (Proc.devRef .tc main_v9) = mixture (m ((c : Thread nD τ).loc main_arg0)) := by
  rw [HostSide.result_array, Mix.final (V6 m ρ) c]
  unfold mixture
  show Cert.Spec.mix (V6 m ρ c main_arg0) (fun r => (V6 m ρ c main_v8 : S256x1.Idx → EReal) (ix2 r 0)) = _
  rw [HostSide.entry_wave, HostSide.entry_scale, HostSide.energies, Energy.final (V0 m ρ) c]
  refine congrArg (Cert.Spec.mix _) (funext fun r => ?_)
  rw [HostSide.column_of_vector, HostSide.vector_of_column]

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.1) (Cert.ReferenceIdeal.Value.run (F := Ideal) m ρ)

/-- Both programs end with the mixture of the same waveform array in their result arrays. -/
theorem algebraic : Cert.algebraic_KernelIdeal_ReferenceIdeal := by
  intro m ρ m' ρ' _ hagree
  refine ⟨fun c => mixture (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg0), ?_, ?_⟩
  · exact (θ_run Cert.KernelIdeal.defs _ _).mono
      (fun _ h c => ⟨(h c).1.trans (kernel_result m ρ c), (h c).2, (h c).2⟩) (Cert.KernelIdeal.Gen.run_named (F := Ideal) m ρ)
  · refine (θ_run Cert.ReferenceIdeal.defs _ _).mono (fun _ h c => ⟨(h c).1.trans ?_, (h c).2.1.trans (hagree c), (h c).2.2⟩)
      (Cert.ReferenceIdeal.Value.run (F := Ideal) m' ρ')
    rw [Cert.ReferenceIdeal.Read.val_main_v14_eq, Cert.ReferenceIdeal.RefValue.result_eq, hagree c]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
